-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S1x256x56x56 : Shape := ⟨4, ![1, 256, 56, 56]⟩
abbrev S256x56x56 : Shape := ⟨3, ![256, 56, 56]⟩
abbrev S256x56 : Shape := ⟨2, ![256, 56]⟩
abbrev S256x56x1 : Shape := ⟨3, ![256, 56, 1]⟩
abbrev S256x1 : Shape := ⟨2, ![256, 1]⟩
abbrev S256x1x1 : Shape := ⟨3, ![256, 1, 1]⟩
abbrev S1x1 : Shape := ⟨2, ![1, 1]⟩
abbrev S1x1x1 : Shape := ⟨3, ![1, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S1x256x56x56, .f32⟩
  | .local _ .vmem, ⟨3, _⟩ => ⟨S1x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x256x56x56_S1x256x56x56_0_0_0_0 : ∀ a, (![0, 0, 0, 0] : Fin 4 → Nat) a + S1x256x56x56.size a ≤ S1x256x56x56.size a
  h_S1x256x56x56 : 0 < S1x256x56x56.numel
  shapeCasts_S1x256x56x56_S256x56x56 : S1x256x56x56.ShapeCasts S256x56x56
  reduces_S256x56x56_S256x56 : S256x56x56.Reduces [2] S256x56
  shapeCasts_S256x56_S256x56x1 : S256x56.ShapeCasts S256x56x1
  reduces_S256x56x1_S256x1 : S256x56x1.Reduces [1] S256x1
  shapeCasts_S256x1_S256x1x1 : S256x1.ShapeCasts S256x1x1
  reduces_S256x1x1_S1x1 : S256x1x1.Reduces [0] S1x1
  shapeCasts_S1x1_S1x1x1 : S1x1.ShapeCasts S1x1x1
  broadcasts_S1x1x1_S256x56x56 : S1x1x1.Broadcasts S256x56x56
  shapeCasts_S256x56x56_S1x256x56x56 : S256x56x56.ShapeCasts S1x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S64x256x56x56.size a
  hwx0_0 : ∀ i : grid0.Coords, EltTy.bits .f32 = 32 ∨ (Rect.block (s := S64x256x56x56) S1x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x56x56.size a ≤ S64x256x56x56.size a
  hwx0_1 : ∀ i : grid0.Coords, EltTy.bits .f32 = 32 ∨ (Rect.block (s := S64x256x56x56) S1x256x56x56.size (cc0_transform_1 i) (hinb0_1 i)).WholeWords (EltTy.packing .f32)

variable [Facts₀]

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x56x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S64x802816 : Shape := ⟨2, ![64, 802816]⟩
abbrev S_ : Shape := ⟨0, ![]⟩
abbrev S64 : Shape := ⟨1, ![64]⟩
abbrev S64x1x1x1 : Shape := ⟨4, ![64, 1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64x802816, .f32⟩
  | .hbm, ⟨2, _⟩ => ⟨S_, .f32⟩
  | .hbm, ⟨3, _⟩ => ⟨S64, .f32⟩
  | .hbm, ⟨4, _⟩ => ⟨S64x1x1x1, .f32⟩
  | .hbm, ⟨5, _⟩ => ⟨S_, .f32⟩
  | .hbm, ⟨6, _⟩ => ⟨S64, .f32⟩
  | .hbm, ⟨7, _⟩ => ⟨S64x1x1x1, .f32⟩
  | .hbm, ⟨8, _⟩ => ⟨S64x1x1x1, .f32⟩
  | .hbm, ⟨9, _⟩ => ⟨S64x256x56x56, .f32⟩
  | .hbm, ⟨10, _⟩ => ⟨S64x256x56x56, .f32⟩
  | .hbm, ⟨11, _⟩ => ⟨S_, .f32⟩
  | .hbm, ⟨12, _⟩ => ⟨S64x256x56x56, .f32⟩
  | .hbm, ⟨13, _⟩ => ⟨S64x256x56x56, .f32⟩
  | .hbm, ⟨14, _⟩ => ⟨S64x256x56x56, .f32⟩
  | .hbm, ⟨15, _⟩ => ⟨S64x256x56x56, .f32⟩
  | .hbm, ⟨16, _⟩ => ⟨S_, .f32⟩
  | .hbm, ⟨17, _⟩ => ⟨S64x256x56x56, .f32⟩
  | .hbm, ⟨18, _⟩ => ⟨S64x256x56x56, .f32⟩
  | .hbm, ⟨19, _⟩ => ⟨S64x256x56x56, .f32⟩
  | .hbm, ⟨20, _⟩ => ⟨S_, .f32⟩
  | .hbm, ⟨21, _⟩ => ⟨S64x256x56x56, .f32⟩
  | .hbm, ⟨22, _⟩ => ⟨S64x256x56x56, .f32⟩
  | .hbm, ⟨23, _⟩ => ⟨S_, .f32⟩
  | .hbm, ⟨24, _⟩ => ⟨S64x256x56x56, .f32⟩
  | .hbm, ⟨25, _⟩ => ⟨S64x256x56x56, .f32⟩
  | .hbm, ⟨26, _⟩ => ⟨S_, .f32⟩
  | .hbm, ⟨27, _⟩ => ⟨S64x256x56x56, .f32⟩
  | .hbm, ⟨28, _⟩ => ⟨S64x256x56x56, .f32⟩
  | .hbm, ⟨29, _⟩ => ⟨S64x256x56x56, .f32⟩
  | .hbm, ⟨30, _⟩ => ⟨S64x256x56x56, .f32⟩
  | .hbm, ⟨31, _⟩ => ⟨S_, .f32⟩
  | .hbm, ⟨32, _⟩ => ⟨S64x256x56x56, .f32⟩
  | .hbm, ⟨33, _⟩ => ⟨S64x256x56x56, .f32⟩
  | .hbm, ⟨34, _⟩ => ⟨S64x256x56x56, .f32⟩
  | .hbm, ⟨35, _⟩ => ⟨S64x256x56x56, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64x256x56x56, .f32⟩
  | .hbm, ⟨40, _⟩ => ⟨S64x256x56x56, .f32⟩
  | .hbm, ⟨41, _⟩ => ⟨S_, .f32⟩
  | .hbm, ⟨42, _⟩ => ⟨S64x256x56x56, .f32⟩
  | .hbm, ⟨43, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  shapeCasts_S64x256x56x56_S64x802816 : S64x256x56x56.ShapeCasts S64x802816
  reducesTo_S64x802816_S64_d1 : S64x802816.ReducesTo [1] S64
  h_S_ : 0 < S_.numel
  shapeCasts_S64_S64x1x1x1 : S64.ShapeCasts S64x1x1x1
  bcast_S64x1x1x1_S64x256x56x56_0_1_2_3 : S64x1x1x1.BroadcastsInDim S64x256x56x56 (![0, 1, 2, 3] : Fin 4 → Fin S64x256x56x56.rank)
  bcast_S_S64x256x56x56 : S_.BroadcastsInDim S64x256x56x56 (![] : Fin 0 → Fin S64x256x56x56.rank)

variable [Facts₀]

class Facts : Prop extends Facts₀ where

variable [Facts]
-- ==== Proof.LibExtremum.lean ====
/-
  Extremes through reductions, on the extended reals.

  A minimum-reduction over some axes of an array, started from +∞, leaves at each reduced index the
  minimum of the entries that drop to it. Taking the infimum of THAT over every reduced index gives
  the infimum of every entry of the source: each entry drops to exactly one reduced index. A shape
  cast only renames indices along a bijection, so it keeps the infimum of all entries as well. A chain
  of reductions and shape casts that ends in an array with a single index therefore holds, at that
  index, the infimum of every entry of the array the chain began with — whatever the order in which
  the axes were reduced. The same holds with maximum, −∞ and supremum.

  For a reduction over ONE axis by the host the reduced entry is read directly as the infimum (or
  supremum) over that axis's coordinates.
-/
import Idealize.ShloMosaic.PureOps.Ideal.Laws

noncomputable section

namespace Cert.Extremum

open Idealize.ShloMosaic

variable {φ : FTy}

/-! ## Folds of `min` and `max` as infimum and supremum -/

/-- Folding `min` from +∞ over a finite set of indices gives the infimum over the set. -/
theorem fold_min_top {ι : Type} (S : Finset ι) (f : ι → EReal) : S.fold min (⊤ : EReal) f = ⨅ k ∈ S, f k :=
  eq_of_forall_le_iff fun z => by
    rw [Finset.le_fold_min]
    simp only [le_top, true_and, le_iInf_iff]

/-- Folding `max` from −∞ over a finite set of indices gives the supremum over the set. -/
theorem fold_max_bot {ι : Type} (S : Finset ι) (f : ι → EReal) : S.fold max (⊥ : EReal) f = ⨆ k ∈ S, f k :=
  eq_of_forall_ge_iff fun z => by
    rw [Finset.fold_max_le]
    simp only [bot_le, true_and, iSup_le_iff]

/-- Over every index of a finite type: the fold of `min` from +∞ is the infimum. -/
theorem fold_min_top_univ {ι : Type} [Fintype ι] (f : ι → EReal) : Finset.univ.fold min (⊤ : EReal) f = ⨅ k, f k := by
  rw [fold_min_top]; simp only [Finset.mem_univ, iInf_pos]

/-- Over every index of a finite type: the fold of `max` from −∞ is the supremum. -/
theorem fold_max_bot_univ {ι : Type} [Fintype ι] (f : ι → EReal) : Finset.univ.fold max (⊥ : EReal) f = ⨆ k, f k := by
  rw [fold_max_bot]; simp only [Finset.mem_univ, iSup_pos]

/-! ## An index type with one element -/

/-- Over an index type with at most one element the infimum is the value at any index. -/
theorem iInf_of_subsingleton {ι : Type} [Subsingleton ι] (g : ι → EReal) (j : ι) : (⨅ j', g j') = g j :=
  le_antisymm (iInf_le _ j) (le_iInf fun j' => by rw [Subsingleton.elim j' j])

/-- Over an index type with at most one element the supremum is the value at any index. -/
theorem iSup_of_subsingleton {ι : Type} [Subsingleton ι] (g : ι → EReal) (j : ι) : (⨆ j', g j') = g j :=
  le_antisymm (iSup_le fun j' => by rw [Subsingleton.elim j' j]) (le_iSup _ j)

/-! ## A shape cast keeps the extremes of all entries -/

/-- A shape cast reads its operand along a bijection of indices: the infimum of all entries is unchanged. -/
theorem iInf_shapeCast {s t : Shape} (v : s.Idx → EReal) (h : s.ShapeCasts t) :
    (⨅ j : t.Idx, shapeCast t v h j) = ⨅ i : s.Idx, v i :=
  (Shape.reshapeEquiv h).iInf_comp (g := v)

/-- And so is the supremum. -/
theorem iSup_shapeCast {s t : Shape} (v : s.Idx → EReal) (h : s.ShapeCasts t) :
    (⨆ j : t.Idx, shapeCast t v h j) = ⨆ i : s.Idx, v i :=
  (Shape.reshapeEquiv h).iSup_comp (g := v)

/-! ## A reduction, then the extreme over what is left -/

/-- A minimum-reduction from +∞ over any axes, followed by the infimum over the reduced indices, is the infimum of
    every entry of the source: the entry at `i` is among those folded at the index `i` drops to, and every entry folded
    at a reduced index is an entry of the source. -/
theorem iInf_multiReduction_min {s t : Shape} {axes : List (Fin s.rank)} (src : FVec Ideal s φ) (acc : BitVec φ.bits)
    (h : s.Reduces axes t) (hφ : FKind.Formats φ) (hacc : acc = FKind.minimumf.neutral φ hφ)
    (htop : (FloatOps.ofBits φ acc : Ideal φ) = (⊤ : EReal)) :
    (⨅ j : t.Idx, (multiReduction .minimumf axes t src acc h hφ hacc j : EReal)) = ⨅ i : s.Idx, (src i : EReal) := by
  have hf : ∀ j : t.Idx, (multiReduction .minimumf axes t src acc h hφ hacc j : EReal)
      = (Finset.univ.filter fun i => h.drop i = j).fold min (⊤ : EReal) src := fun j => by
    rw [multiReduction_minimumf_eq_fold, htop]; rfl
  apply le_antisymm
  · refine le_iInf fun i => (iInf_le _ (h.drop i)).trans ?_
    rw [hf]
    exact (Finset.fold_min_le _).2 (Or.inr ⟨i, Finset.mem_filter.2 ⟨Finset.mem_univ _, rfl⟩, le_rfl⟩)
  · refine le_iInf fun j => ?_
    rw [hf, Finset.le_fold_min]
    exact ⟨le_top, fun i _ => iInf_le _ i⟩

/-- A maximum-reduction from −∞ over any axes, followed by the supremum over the reduced indices, is the supremum of
    every entry of the source. -/
theorem iSup_multiReduction_max {s t : Shape} {axes : List (Fin s.rank)} (src : FVec Ideal s φ) (acc : BitVec φ.bits)
    (h : s.Reduces axes t) (hφ : FKind.Formats φ) (hacc : acc = FKind.maximumf.neutral φ hφ)
    (hbot : (FloatOps.ofBits φ acc : Ideal φ) = (⊥ : EReal)) :
    (⨆ j : t.Idx, (multiReduction .maximumf axes t src acc h hφ hacc j : EReal)) = ⨆ i : s.Idx, (src i : EReal) := by
  have hf : ∀ j : t.Idx, (multiReduction .maximumf axes t src acc h hφ hacc j : EReal)
      = (Finset.univ.filter fun i => h.drop i = j).fold max (⊥ : EReal) src := fun j => by
    rw [multiReduction_maximumf_eq_fold, hbot]; rfl
  apply le_antisymm
  · refine iSup_le fun j => ?_
    rw [hf, Finset.fold_max_le]
    exact ⟨bot_le, fun i _ => le_iSup _ i⟩
  · refine iSup_le fun i => le_trans ?_ (le_iSup _ (h.drop i))
    rw [hf]
    exact (Finset.le_fold_max _).2 (Or.inr ⟨i, Finset.mem_filter.2 ⟨Finset.mem_univ _, rfl⟩, le_rfl⟩)

/-! ## The host's reduction over one axis -/

/-- The host's reduce with a minimum body over ONE axis, from an initial value that is +∞: at a reduced index, the
    infimum of the operand over that axis's coordinates (the reduced index with the coordinate put back). -/
theorem hostReduce_min_single {s t u : Shape} {a : Fin s.rank} (x : s.Idx → Ideal φ) (init : u.Idx → Ideal φ)
    (h' : s.ReducesTo [a] t) (h : s.Reduces [a] t) (hu : 0 < u.numel) (hinit : init (Shape.Idx.first hu) = (⊤ : EReal))
    (j : t.Idx) :
    (Host.reduce (FloatOps.minimumf (F := Ideal) (φ := φ)) x init h' hu j : EReal) = ⨅ k : Fin (s.size a), (x (h.lift j k) : EReal) := by
  rw [Host.reduce_eq_fold_single (FloatOps.minimumf (F := Ideal) (φ := φ)) x init h' h hu j, hinit]
  exact fold_min_top_univ (fun k => x (h.lift j k))

/-- The same with a maximum body from −∞: the supremum over that axis's coordinates. -/
theorem hostReduce_max_single {s t u : Shape} {a : Fin s.rank} (x : s.Idx → Ideal φ) (init : u.Idx → Ideal φ)
    (h' : s.ReducesTo [a] t) (h : s.Reduces [a] t) (hu : 0 < u.numel) (hinit : init (Shape.Idx.first hu) = (⊥ : EReal))
    (j : t.Idx) :
    (Host.reduce (FloatOps.maximumf (F := Ideal) (φ := φ)) x init h' hu j : EReal) = ⨆ k : Fin (s.size a), (x (h.lift j k) : EReal) := by
  rw [Host.reduce_eq_fold_single (FloatOps.maximumf (F := Ideal) (φ := φ)) x init h' h hu j, hinit]
  exact fold_max_bot_univ (fun k => x (h.lift j k))

/-! ## The two infinite words -/

/-- The f32 word of +∞ is the top of the extended reals. -/
theorem ofBits_posInf_f32 : (FloatOps.ofBits (F := Ideal) .f32 0x7F800000#32 : EReal) = ⊤ := by
  show Ideal.ofBits .f32 0x7F800000#32 = ⊤
  simp [Ideal.ofBits, Ideal.ieee]

/-- The f32 word of −∞ is the bottom of the extended reals. -/
theorem ofBits_negInf_f32 : (FloatOps.ofBits (F := Ideal) .f32 0xFF800000#32 : EReal) = ⊥ := by
  show Ideal.ofBits .f32 0xFF800000#32 = ⊥
  simp [Ideal.ofBits, Ideal.ieee]

end Cert.Extremum

end
-- ==== Proof.QuantSpec.lean ====
/-
  What both programs compute, as one function of the input array.

  The input is an array x[b, c, h, w] of 64 samples, each of 256 × 56 × 56 entries. For sample b let
  lo(b) be the least and hi(b) the greatest of its entries (an infimum and a supremum on the extended
  reals, over the triples (c, h, w)). Every entry is then quantised against that range and clipped:

      x ↦ min 6 (max 0 (((1000 · (round(254 · (x − lo) / (hi − lo) − 127) / 1000) + 127) · (hi − lo)) / 254 + lo))

  with round to nearest, ties to even. The operations are the ideal ones, taken in exactly this order and
  grouping; nothing is simplified, so nothing is asked of the entries (no finiteness).

  The two programs differ only in how they reach lo(b) and hi(b): one walks a sample as a single row of
  802816 entries, the other as a block of shape [1, 256, 56, 56]. Either way every triple (c, h, w) is
  met, which is all an infimum or a supremum needs: the two surjections below say so.
-/
import Idealize.ShloMosaic.Lib.ValueIdx
import Idealize.ShloMosaic.PureOps.Ideal

noncomputable section

namespace Cert.QuantSpec

open Idealize.ShloMosaic Idealize.ShloMosaic.ValueIdx

/-- The whole array: 64 samples of 256 × 56 × 56 entries. -/
abbrev SX : Shape := ⟨4, ![64, 256, 56, 56]⟩
/-- One sample as a block. -/
abbrev SB : Shape := ⟨4, ![1, 256, 56, 56]⟩

/-- A position inside a sample. -/
abbrev Pos : Type := Fin 256 × Fin 56 × Fin 56

/-- The entry of sample `b` at position `p`. -/
def entry (x : SX.Idx → EReal) (b : Fin 64) (p : Pos) : EReal := x (ix4 b p.1 p.2.1 p.2.2)

/-- The least entry of sample `b`. -/
def lo (x : SX.Idx → EReal) (b : Fin 64) : EReal := ⨅ p : Pos, entry x b p
/-- The greatest entry of sample `b`. -/
def hi (x : SX.Idx → EReal) (b : Fin 64) : EReal := ⨆ p : Pos, entry x b p

/-- Quantise `v` against the range [`mn`, `mx`], dequantise, and clip to [0, 6]: the ideal operations in the
    order both programs apply them (254, 127, 1000, 0 and 6 as their f32 words). -/
def quant (mn mx v : Ideal .f32) : Ideal .f32 :=
  FloatOps.minimumf (Scalar.ofBits .f32 0x40C00000#32) (FloatOps.maximumf (Scalar.ofBits .f32 0x00000000#32)
    (FloatOps.addf (FloatOps.divf (FloatOps.mulf (FloatOps.addf (FloatOps.mulf (Scalar.ofBits .f32 0x447A0000#32)
      (FloatOps.divf (FloatOps.roundeven (FloatOps.subf (FloatOps.divf (FloatOps.mulf (Scalar.ofBits .f32 0x437E0000#32)
        (FloatOps.subf v mn)) (FloatOps.subf mx mn)) (Scalar.ofBits .f32 0x42FE0000#32))) (Scalar.ofBits .f32 0x447A0000#32)))
      (Scalar.ofBits .f32 0x42FE0000#32)) (FloatOps.subf mx mn)) (Scalar.ofBits .f32 0x437E0000#32)) mn))

/-- The result array: each entry quantised against its own sample's range. -/
def G (x : SX.Idx → EReal) : SX.Idx → EReal := fun i => quant (lo x (i 0)) (hi x (i 0)) (x i)

/-! ## Every position of a sample is met, by a flat row and by a block -/

/-- The position of the `k`-th entry of a sample laid out as one row of 802816 = 256 · 56 · 56 entries. -/
def unflat (k : Fin 802816) : Pos :=
  (⟨k.val / 3136, by have := k.isLt; omega⟩, ⟨k.val / 56 % 56, by omega⟩, ⟨k.val % 56, by omega⟩)

/-- Every position is some entry of the row: (c, h, w) is entry c · 3136 + h · 56 + w. -/
theorem unflat_surjective : Function.Surjective unflat := fun p => by
  obtain ⟨c, h, w⟩ := p
  have hc := c.isLt; have hh := h.isLt; have hw := w.isLt
  refine ⟨⟨c.val * 3136 + h.val * 56 + w.val, by omega⟩, ?_⟩
  refine Prod.ext (Fin.ext ?_) (Prod.ext (Fin.ext ?_) (Fin.ext ?_))
  · show (c.val * 3136 + h.val * 56 + w.val) / 3136 = c.val; omega
  · show (c.val * 3136 + h.val * 56 + w.val) / 56 % 56 = h.val; omega
  · show (c.val * 3136 + h.val * 56 + w.val) % 56 = w.val; omega

/-- The position a block index names (its first coordinate is always 0). -/
def inBlock (y : SB.Idx) : Pos := (y 1, y 2, y 3)

/-- Every position is some index of the block. -/
theorem inBlock_surjective : Function.Surjective inBlock := fun p => ⟨ix4 (0 : Fin 1) p.1 p.2.1 p.2.2, rfl⟩

/-- The least entry of a sample, reached through any family of positions that meets them all. -/
theorem lo_of_surjective {ι : Type} (f : ι → Pos) (hf : Function.Surjective f) (x : SX.Idx → EReal) (b : Fin 64) :
    (⨅ k : ι, entry x b (f k)) = lo x b := hf.iInf_comp (entry x b)

/-- The greatest entry of a sample, likewise. -/
theorem hi_of_surjective {ι : Type} (f : ι → Pos) (hf : Function.Surjective f) (x : SX.Idx → EReal) (b : Fin 64) :
    (⨆ k : ι, entry x b (f k)) = hi x b := hf.iSup_comp (entry x b)

/-! ## A sample read through a block -/

/-- Let `e` place the block index `y` at sample `b`, position (y 1, y 2, y 3) of the array. The quantise-and-clip
    function of a block entry and of the block's least and greatest entry is then the specification at that entry:
    the block's entries are exactly the sample's. -/
theorem quant_block (x : SX.Idx → EReal) (b : Fin 64) (e : SB.Idx → SX.Idx)
    (he : ∀ y : SB.Idx, e y = ix4 b (y 1) (y 2) (y 3)) (y : SB.Idx) :
    quant (⨅ y' : SB.Idx, x (e y')) (⨆ y' : SB.Idx, x (e y')) (x (e y)) = G x (e y) := by
  have hb : (e y) 0 = b := by rw [he]
  have hlo : (⨅ y' : SB.Idx, x (e y')) = lo x b := by
    rw [← lo_of_surjective inBlock inBlock_surjective x b]
    exact iInf_congr fun y' => by rw [he]; rfl
  have hhi : (⨆ y' : SB.Idx, x (e y')) = hi x b := by
    rw [← hi_of_surjective inBlock inBlock_surjective x b]
    exact iSup_congr fun y' => by rw [he]; rfl
  unfold G
  rw [hlo, hhi, hb]

end Cert.QuantSpec

end
-- ==== Proof.KernelValue.lean ====
/-
  The kernel computes the specification.

  The kernel handles one sample per grid point: it loads the sample as a block of shape [1, 256, 56, 56],
  reduces it to a single value three axes in turn (the last axis, then the middle one, then the first),
  once with minimum from +∞ and once with maximum from −∞, and stores the quantise-and-clip function of
  every entry with those two values. Reducing axis after axis reaches every entry of the block, so the two
  values are the least and the greatest entry of the block, that is, of the sample. Block b of the output
  is therefore block b of the specification, and the 64 blocks tile the output array.
-/
import proofs.«104761_j55671366090844_1_alg».proof.Proof.KernelIdealValue
import proofs.«104761_j55671366090844_1_alg».proof.Proof.LibExtremum
import proofs.«104761_j55671366090844_1_alg».proof.Proof.QuantSpec
import Idealize.ShloMosaic.Lib.ValueIdx
import Idealize.ShloMosaic.Lib.Pipeline.Value

noncomputable section

namespace Cert.KernelIdeal.KernelValue

open Cert.KernelIdeal Cert.KernelIdeal.Gen Cert.KernelIdeal.ValueP
open Idealize.ShloMosaic Idealize.ShloMosaic.TcCoe Idealize.SL.Sem
open Idealize.ShloMosaic.Pipeline (Dat)
open Idealize.ShloMosaic.ValueIdx Cert.QuantSpec Cert.Extremum

/-! ## The block's two reduced values -/

/-- The shape [1, 1] has one index. -/
instance : Subsingleton S1x1.Idx := ⟨fun a b => funext fun d => match d with
  | ⟨0, _⟩ => Fin.ext (by have h1 : (a 0).val < 1 := (a 0).isLt; have h2 : (b 0).val < 1 := (b 0).isLt; show (a 0).val = (b 0).val; omega)
  | ⟨1, _⟩ => Fin.ext (by have h1 : (a 1).val < 1 := (a 1).isLt; have h2 : (b 1).val < 1 := (b 1).isLt; show (a 1).val = (b 1).val; omega)⟩

/-- Minimum over the last axis, then the middle one, then the first, each from +∞: the least entry of the block. -/
theorem blockMin (P0 : Vec Ideal S1x256x56x56 .f32) (j : S1x1.Idx) :
    (multiReduction (F := Ideal) .minimumf [0] S1x1 (shapeCast S256x1x1 (multiReduction .minimumf [1] S256x1 (shapeCast S256x56x1 (multiReduction .minimumf [2] S256x56 (shapeCast S256x56x56 P0 shapeCasts_S1x256x56x56_S256x56x56) 0x7F800000#32 reduces_S256x56x56_S256x56 (.inl rfl) rfl) shapeCasts_S256x56_S256x56x1) 0x7F800000#32 reduces_S256x56x1_S256x1 (.inl rfl) rfl) shapeCasts_S256x1_S256x1x1) 0x7F800000#32 reduces_S256x1x1_S1x1 (.inl rfl) rfl) j = ⨅ y : S1x256x56x56.Idx, (P0 y : EReal) := by
  refine (iInf_of_subsingleton _ j).symm.trans ?_
  exact (iInf_multiReduction_min _ _ _ _ _ ofBits_posInf_f32).trans <|
    (iInf_shapeCast _ _).trans <|
    (iInf_multiReduction_min _ _ _ _ _ ofBits_posInf_f32).trans <|
    (iInf_shapeCast _ _).trans <|
    (iInf_multiReduction_min _ _ _ _ _ ofBits_posInf_f32).trans <|
    (iInf_shapeCast _ _)

/-- Maximum over the same three axes in turn, each from −∞: the greatest entry of the block. -/
theorem blockMax (P0 : Vec Ideal S1x256x56x56 .f32) (j : S1x1.Idx) :
    (multiReduction (F := Ideal) .maximumf [0] S1x1 (shapeCast S256x1x1 (multiReduction .maximumf [1] S256x1 (shapeCast S256x56x1 (multiReduction .maximumf [2] S256x56 (shapeCast S256x56x56 P0 shapeCasts_S1x256x56x56_S256x56x56) 0xFF800000#32 reduces_S256x56x56_S256x56 (.inl rfl) rfl) shapeCasts_S256x56_S256x56x1) 0xFF800000#32 reduces_S256x56x1_S256x1 (.inl rfl) rfl) shapeCasts_S256x1_S256x1x1) 0xFF800000#32 reduces_S256x1x1_S1x1 (.inl rfl) rfl) j = ⨆ y : S1x256x56x56.Idx, (P0 y : EReal) := by
  refine (iSup_of_subsingleton _ j).symm.trans ?_
  exact (iSup_multiReduction_max _ _ _ _ _ ofBits_negInf_f32).trans <|
    (iSup_shapeCast _ _).trans <|
    (iSup_multiReduction_max _ _ _ _ _ ofBits_negInf_f32).trans <|
    (iSup_shapeCast _ _).trans <|
    (iSup_multiReduction_max _ _ _ _ _ ofBits_negInf_f32).trans <|
    (iSup_shapeCast _ _)

/-- What the body leaves at index `y` of the block: the quantise-and-clip function of the entry there and of the
    block's least and greatest entry. -/
theorem block_eq (P0 : Vec Ideal S1x256x56x56 .f32) (y : S1x256x56x56.Idx) :
    E1 P0 y = quant (⨅ y' : S1x256x56x56.Idx, (P0 y' : EReal)) (⨆ y' : S1x256x56x56.Idx, (P0 y' : EReal)) (P0 y) := by
  have h0 : ix1_0 y = y := by
    funext a; apply Fin.ext
    match a with
    | ⟨0, _⟩ => show 0 = (y 0).val; have h : (y 0).val < 1 := (y 0).isLt; omega
    | ⟨1, _⟩ => rfl
    | ⟨2, _⟩ => rfl
    | ⟨3, _⟩ => rfl
  unfold E1
  rw [h0, blockMin P0 (ix1_1 y), blockMax P0 (ix1_2 y)]
  rfl

/-! ## From blocks to the array -/

variable (m : (ℓ : Loc nD τ sig) → Buf (Elt Ideal) ℓ) (ρ : Dev nD → PrngReg)

/-- The body's one load and one store start at the block's origin. -/
theorem originOffsets : (![0, 0, 0, 0] : Fin 4 → Nat) = fun _ => 0 := funext fun a => by fin_cases a <;> rfl

/-- Both windows' index maps send grid point `t` to block (t, 0, 0, 0): decided over the 64 points. -/
theorem blockIndex : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- The sample grid point `t` works on. -/
def sampleOf (t : Fin cfg0.N) : Fin 64 := ⟨t.val, lt_of_lt_of_eq t.isLt N_0⟩

/-- WHAT POINT `t` WRITES BACK is block `t` of the specification of the input array. -/
theorem flushed_eq (c : Dev nD) (t : Fin cfg0.N) :
    (dats m 0 c).flushed 1 t = ((cfg0.win 1).blk t).view.read (Elt Ideal) (G (V m c main_arg0)) := by
  rw [flushed1]
  obtain ⟨a0, a1, a2, a3, b0, b1, b2, b3⟩ := blockIndex t
  -- the input block's index `y'` sits at sample `t`, position (y' 1, y' 2, y' 3) of the array
  have he : ∀ y' : S1x256x56x56.Idx, ((cfg0.win 0).blk t).view.emb y' = ix4 (sampleOf t) (y' 1) (y' 2) (y' 3) := by
    intro y'
    funext a; apply Fin.ext
    match a with
    | ⟨0, _⟩ => show win0_0.index t (0 : Fin 4) * 1 + 1 * (y' 0).val = t.val; have h : (y' 0).val < 1 := (y' 0).isLt; omega
    | ⟨1, _⟩ => show win0_0.index t (1 : Fin 4) * 256 + 1 * (y' 1).val = (y' 1).val; omega
    | ⟨2, _⟩ => show win0_0.index t (2 : Fin 4) * 56 + 1 * (y' 2).val = (y' 2).val; omega
    | ⟨3, _⟩ => show win0_0.index t (3 : Fin 4) * 56 + 1 * (y' 3).val = (y' 3).val; omega
  funext y
  -- the output block's index sits where the input block's does
  have he1 : ((cfg0.win 1).blk t).view.emb y = ((cfg0.win 0).blk t).view.emb y := by
    funext a; apply Fin.ext
    match a with
    | ⟨0, _⟩ => show win0_1.index t (0 : Fin 4) * 1 + 1 * (y 0).val = win0_0.index t (0 : Fin 4) * 1 + 1 * (y 0).val; omega
    | ⟨1, _⟩ => show win0_1.index t (1 : Fin 4) * 256 + 1 * (y 1).val = win0_0.index t (1 : Fin 4) * 256 + 1 * (y 1).val; omega
    | ⟨2, _⟩ => show win0_1.index t (2 : Fin 4) * 56 + 1 * (y 2).val = win0_0.index t (2 : Fin 4) * 56 + 1 * (y 2).val; omega
    | ⟨3, _⟩ => show win0_1.index t (3 : Fin 4) * 56 + 1 * (y 3).val = win0_0.index t (3 : Fin 4) * 56 + 1 * (y 3).val; omega
  show out0_1 (iblk m c 0 t) y = G (V m c main_arg0) (((cfg0.win 1).blk t).view.emb y)
  unfold out0_1
  rw [canon1_eq, View.ld_unit_zero (S := S1x256x56x56) originOffsets, block_eq, he1]
  exact quant_block (V m c main_arg0) (sampleOf t) (fun y' => ((cfg0.win 0).blk t).view.emb y') he y

/-- An index of the array is in point `t`'s output block iff each coordinate is in the block's range on its axis. -/
theorem mem_block (t : Fin cfg0.N) (i : S64x256x56x56.Idx) :
    i ∈ ((cfg0.win 1).blk t).view.set ↔ ∀ a : Fin 4, win0_1.index t a * S1x256x56x56.size a ≤ (i a).val
      ∧ (i a).val < win0_1.index t a * S1x256x56x56.size a + S1x256x56x56.size a := by
  show i ∈ ((View.whole main_v0).slice (win0_1.rect t)).set ↔ _
  rw [View.set_slice_whole, Rect.mem_set_unit]
  exact Iff.rfl

/-- THE ARRAY after the run is the specification of the input array: entry (b, c, h, w) lies in point `b`'s block. -/
theorem final (c : Dev nD) : (dats m 0 c).arrAt 1 cfg0.N = G (V m c main_arg0) :=
  (dats m 0 c).arrAt_eq_of_cover 1 (G (V m c main_arg0)) (fun t _ => flushed_eq m c t) fun i => by
    have hi0 : (i 0).val < 64 := (i 0).isLt
    have hi1 : (i 1).val < 256 := (i 1).isLt
    have hi2 : (i 2).val < 56 := (i 2).isLt
    have hi3 : (i 3).val < 56 := (i 3).isLt
    obtain ⟨-, -, -, -, b0, b1, b2, b3⟩ := blockIndex ⟨(i 0).val, lt_of_lt_of_eq hi0 N_0.symm⟩
    refine ⟨⟨(i 0).val, lt_of_lt_of_eq hi0 N_0.symm⟩, flush0_1 _, ?_⟩
    rw [mem_block]
    intro a
    match a with
    | ⟨0, _⟩ =>
      show win0_1.index ⟨(i 0).val, lt_of_lt_of_eq hi0 N_0.symm⟩ (0 : Fin 4) * 1 ≤ (i 0).val
        ∧ (i 0).val < win0_1.index ⟨(i 0).val, lt_of_lt_of_eq hi0 N_0.symm⟩ (0 : Fin 4) * 1 + 1
      rw [b0]; show (i 0).val * 1 ≤ (i 0).val ∧ (i 0).val < (i 0).val * 1 + 1; omega
    | ⟨1, _⟩ =>
      show win0_1.index ⟨(i 0).val, lt_of_lt_of_eq hi0 N_0.symm⟩ (1 : Fin 4) * 256 ≤ (i 1).val
        ∧ (i 1).val < win0_1.index ⟨(i 0).val, lt_of_lt_of_eq hi0 N_0.symm⟩ (1 : Fin 4) * 256 + 256
      rw [b1]; omega
    | ⟨2, _⟩ =>
      show win0_1.index ⟨(i 0).val, lt_of_lt_of_eq hi0 N_0.symm⟩ (2 : Fin 4) * 56 ≤ (i 2).val
        ∧ (i 2).val < win0_1.index ⟨(i 0).val, lt_of_lt_of_eq hi0 N_0.symm⟩ (2 : Fin 4) * 56 + 56
      rw [b2]; omega
    | ⟨3, _⟩ =>
      show win0_1.index ⟨(i 0).val, lt_of_lt_of_eq hi0 N_0.symm⟩ (3 : Fin 4) * 56 ≤ (i 3).val
        ∧ (i 3).val < win0_1.index ⟨(i 0).val, lt_of_lt_of_eq hi0 N_0.symm⟩ (3 : Fin 4) * 56 + 56
      rw [b3]; omega

/-! ## The run, read -/

/-- Every weakly fair execution of the kernel's program ends with the result array at the specification of the
    input array, and the input array unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.KernelValue

end
-- ==== Proof.ReferenceValue.lean ====
/-
  The reference computes the specification.

  The reference lays each sample out as one row of 802816 entries and reduces that row twice, once with
  minimum from +∞ and once with maximum from −∞. Entry k of row b is the array's entry at sample b and
  position (k / 3136, k / 56 mod 56, k mod 56), and these positions run over all of a sample, so the two
  reduced values are the sample's least and greatest entry. Everything after that is pointwise: the
  broadcasts hand each entry its own sample's two values, and the remaining operations are the
  quantise-and-clip function, in the same order.
-/
import proofs.«104761_j55671366090844_1_alg».proof.Proof.Gen.ReferenceIdeal.Read
import proofs.«104761_j55671366090844_1_alg».proof.Proof.LibExtremum
import proofs.«104761_j55671366090844_1_alg».proof.Proof.QuantSpec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.QuantSpec Cert.Extremum

/-! ## The two reductions over a sample's row -/

/-- The row array [64, 802816] reduces along its second axis to [64]. -/
theorem reducesRow : S64x802816.Reduces [1] S64 := by decide

/-- Entry `k` of row `j` is the array's entry at sample `j` and the position `k` unflattens to. -/
theorem rowEntry_idx (j : S64.Idx) (k : Fin (S64x802816.size 1)) :
    idx_main_v0 (reducesRow.lift j k)
      = ix4 (j 0) (unflat ⟨k.val, k.isLt⟩).1 (unflat ⟨k.val, k.isLt⟩).2.1 (unflat ⟨k.val, k.isLt⟩).2.2 := by
  have h0 : (reducesRow.lift j k (0 : Fin 2)).val = (j 0).val := rfl
  have h1 : (reducesRow.lift j k (1 : Fin 2)).val = k.val := rfl
  have hj : (j 0).val < 64 := (j 0).isLt
  have hk : k.val < 802816 := k.isLt
  funext a; apply Fin.ext
  match a with
  | ⟨0, _⟩ =>
    show ((reducesRow.lift j k (0 : Fin 2)).val * 802816 + (reducesRow.lift j k (1 : Fin 2)).val) / 802816 = (j 0).val
    rw [h0, h1]; omega
  | ⟨1, _⟩ =>
    show ((reducesRow.lift j k (0 : Fin 2)).val * 802816 + (reducesRow.lift j k (1 : Fin 2)).val) / 3136 % 256 = k.val / 3136
    rw [h0, h1]; omega
  | ⟨2, _⟩ =>
    show ((reducesRow.lift j k (0 : Fin 2)).val * 802816 + (reducesRow.lift j k (1 : Fin 2)).val) / 56 % 56 = k.val / 56 % 56
    rw [h0, h1]; omega
  | ⟨3, _⟩ =>
    show ((reducesRow.lift j k (0 : Fin 2)).val * 802816 + (reducesRow.lift j k (1 : Fin 2)).val) % 56 = k.val % 56
    rw [h0, h1]; omega

/-- The positions the entries of a row unflatten to are all of a sample's positions. -/
theorem rowPos_surjective : Function.Surjective fun k : Fin (S64x802816.size 1) => unflat ⟨k.val, k.isLt⟩ := fun p => by
  obtain ⟨k, hk⟩ := unflat_surjective p
  exact ⟨⟨k.val, k.isLt⟩, hk⟩

/-- The row's entry as an entry of the sample. -/
theorem rowEntry (x0 : FVec Ideal S64x256x56x56 .f32) (j : S64.Idx) (k : Fin (S64x802816.size 1)) :
    val_main_v0 (F := Ideal) x0 (reducesRow.lift j k) = entry x0 (j 0) (unflat ⟨k.val, k.isLt⟩) := by
  rw [val_main_v0_apply, rowEntry_idx]; rfl

/-- The minimum-reduce of row `j` is the least entry of sample `j`. -/
theorem sample_min (x0 : FVec Ideal S64x256x56x56 .f32) (j : S64.Idx) : val_main_v1 (F := Ideal) x0 j = lo x0 (j 0) := by
  unfold val_main_v1
  rw [hostReduce_min_single (φ := .f32) (val_main_v0 (F := Ideal) x0) (val_main_cst (F := Ideal))
    reducesTo_S64x802816_S64_d1 reducesRow h_S_ ofBits_posInf_f32 j]
  rw [← lo_of_surjective _ rowPos_surjective x0 (j 0)]
  exact iInf_congr fun k => rowEntry x0 j k

/-- The maximum-reduce of row `j` is the greatest entry of sample `j`. -/
theorem sample_max (x0 : FVec Ideal S64x256x56x56 .f32) (j : S64.Idx) : val_main_v3 (F := Ideal) x0 j = hi x0 (j 0) := by
  unfold val_main_v3
  rw [hostReduce_max_single (φ := .f32) (val_main_v0 (F := Ideal) x0) (val_main_cst_0 (F := Ideal))
    reducesTo_S64x802816_S64_d1 reducesRow h_S_ ofBits_negInf_f32 j]
  rw [← hi_of_surjective _ rowPos_surjective x0 (j 0)]
  exact iSup_congr fun k => rowEntry x0 j k

/-! ## Each entry is handed its own sample's two values -/

/-- A [64, 1, 1, 1] index names the sample of its first coordinate. -/
theorem sampleOf_col (k : S64x1x1x1.Idx) : (idx_main_v2 k (0 : Fin 1)).val = (k 0).val := by
  have h1 : (k 1).val < 1 := (k 1).isLt
  have h2 : (k 2).val < 1 := (k 2).isLt
  have h3 : (k 3).val < 1 := (k 3).isLt
  show (((k 0).val * 1 + (k 1).val) * 1 + (k 2).val) * 1 + (k 3).val = (k 0).val
  omega

theorem s26 (i : S64x256x56x56.Idx) : idx_main_v2 (idx_main_v6 i) (0 : Fin 1) = i 0 := Fin.ext (sampleOf_col _)
theorem s210 (i : S64x256x56x56.Idx) : idx_main_v2 (idx_main_v10 i) (0 : Fin 1) = i 0 := Fin.ext (sampleOf_col _)
theorem s410 (i : S64x256x56x56.Idx) : idx_main_v4 (idx_main_v10 i) (0 : Fin 1) = i 0 := Fin.ext (sampleOf_col _)
theorem s221 (i : S64x256x56x56.Idx) : idx_main_v2 (idx_main_v21 i) (0 : Fin 1) = i 0 := Fin.ext (sampleOf_col _)
theorem s421 (i : S64x256x56x56.Idx) : idx_main_v4 (idx_main_v21 i) (0 : Fin 1) = i 0 := Fin.ext (sampleOf_col _)
theorem s225 (i : S64x256x56x56.Idx) : idx_main_v2 (idx_main_v25 i) (0 : Fin 1) = i 0 := Fin.ext (sampleOf_col _)

/-! ## The reference's result is the specification -/

section Entry

variable (x0 : FVec Ideal S64x256x56x56 .f32) (i : S64x256x56x56.Idx)

/-! The broadcast scalars, at any entry. -/

theorem c254a : val_main_v8 (F := Ideal) i = FloatOps.ofBits (F := Ideal) .f32 0x437E0000#32 := by rw [val_main_v8_apply]; rfl
theorem c127a : val_main_v12 (F := Ideal) i = FloatOps.ofBits (F := Ideal) .f32 0x42FE0000#32 := by rw [val_main_v12_apply]; rfl
theorem c1000a : val_main_v15 (F := Ideal) i = FloatOps.ofBits (F := Ideal) .f32 0x447A0000#32 := by rw [val_main_v15_apply]; rfl
theorem c1000b : val_main_v17 (F := Ideal) i = FloatOps.ofBits (F := Ideal) .f32 0x447A0000#32 := by rw [val_main_v17_apply]; rfl
theorem c127b : val_main_v19 (F := Ideal) i = FloatOps.ofBits (F := Ideal) .f32 0x42FE0000#32 := by rw [val_main_v19_apply]; rfl
theorem c254b : val_main_v23 (F := Ideal) i = FloatOps.ofBits (F := Ideal) .f32 0x437E0000#32 := by rw [val_main_v23_apply]; rfl
theorem cZero : val_main_call1_v1 (F := Ideal) i = FloatOps.ofBits (F := Ideal) .f32 0x00000000#32 := by rw [val_main_call1_v1_apply]; rfl
theorem cSix : val_main_call1_v4 (F := Ideal) i = FloatOps.ofBits (F := Ideal) .f32 0x40C00000#32 := by rw [val_main_call1_v4_apply]; rfl

/-! The broadcast per-sample values, at an entry of sample `i 0`. -/

theorem bLo6 : val_main_v6 (F := Ideal) x0 i = lo x0 (i 0) := by
  rw [val_main_v6_apply, val_main_v2_apply, sample_min, s26]
theorem bLo25 : val_main_v25 (F := Ideal) x0 i = lo x0 (i 0) := by
  rw [val_main_v25_apply, val_main_v2_apply, sample_min, s225]
theorem bRng10 : val_main_v10 (F := Ideal) x0 i = FloatOps.subf (F := Ideal) (φ := .f32) (hi x0 (i 0)) (lo x0 (i 0)) := by
  rw [val_main_v10_apply, val_main_v5_apply, val_main_v4_apply, val_main_v2_apply, sample_max, sample_min, s410, s210]
theorem bRng21 : val_main_v21 (F := Ideal) x0 i = FloatOps.subf (F := Ideal) (φ := .f32) (hi x0 (i 0)) (lo x0 (i 0)) := by
  rw [val_main_v21_apply, val_main_v5_apply, val_main_v4_apply, val_main_v2_apply, sample_max, sample_min, s421, s221]

end Entry

/-- The reference's last stage, entry by entry: the quantise-and-clip function of the entry and of its sample's
    least and greatest entry (at the ideal values the host's division and rounding are the kernel's). -/
theorem result_eq (x0 : FVec Ideal S64x256x56x56 .f32) : val_main_v27 (F := Ideal) x0 = G x0 := by
  funext i
  rw [val_main_v27_apply, val_main_call1_v2_apply, val_main_v26_apply, val_main_v24_apply, val_main_v22_apply,
    val_main_v20_apply, val_main_v18_apply, val_main_v16_apply, val_main_v14_apply, val_main_v13_apply,
    val_main_v11_apply, val_main_v9_apply, val_main_v7_apply,
    cSix, cZero, c254b, c127b, c1000b, c1000a, c127a, c254a, bLo6, bRng10, bRng21, bLo25]
  rfl

end Cert.ReferenceIdeal.RefValue

end
-- ==== Proof.lean ====
/-
  Per-sample min–max quantisation followed by a clip to [0, 6]: a kernel that handles one sample per grid
  point against a reference that handles the whole array at once.

  Both programs quantise every entry of a sample against the sample's own range, dequantise and clip, with the
  same operations in the same order and the same constants; at the ideal values the host's division and
  rounding are the kernel's. They differ only in how the range is found: the reference flattens a sample to one
  row and reduces it once with minimum and once with maximum, the kernel reduces the sample's block one axis at
  a time. Either way the result is the least and the greatest entry of the sample (an infimum and a supremum
  on the extended reals do not depend on the order or grouping in which the entries are met), so both programs
  end with the result array at one function `G` of the input array. No property of the entries is used: the
  precondition is never opened.

  The idealised kernel is the kernel's own text read at the ideal values: nothing was rewritten, so the
  statement that relates the two is trivially true. The three programs run, fault-free, and leave the input array
  unchanged: for the two kernels this is the generated frame, for the reference its run with the result dropped.
-/
import proofs.«104761_j55671366090844_1_alg».proof.Defs
import proofs.«104761_j55671366090844_1_alg».proof.Proof.Gen.Kernel
import proofs.«104761_j55671366090844_1_alg».proof.Proof.Gen.Kernel.Skeleton
import proofs.«104761_j55671366090844_1_alg».proof.Proof.Gen.Kernel.Launch
import proofs.«104761_j55671366090844_1_alg».proof.Proof.Gen.Kernel.Points
import proofs.«104761_j55671366090844_1_alg».proof.Proof.Gen.Kernel.Frame
import proofs.«104761_j55671366090844_1_alg».proof.Proof.Gen.KernelIdeal
import proofs.«104761_j55671366090844_1_alg».proof.Proof.Gen.KernelIdeal.Skeleton
import proofs.«104761_j55671366090844_1_alg».proof.Proof.Gen.KernelIdeal.Launch
import proofs.«104761_j55671366090844_1_alg».proof.Proof.Gen.KernelIdeal.Points
import proofs.«104761_j55671366090844_1_alg».proof.Proof.Gen.KernelIdeal.Frame
import proofs.«104761_j55671366090844_1_alg».proof.Proof.Gen.ReferenceIdeal
import proofs.«104761_j55671366090844_1_alg».proof.Proof.Gen.Pre_finite_inputs
import proofs.«104761_j55671366090844_1_alg».proof.Proof.Gen.ReferenceIdeal.Run
import proofs.«104761_j55671366090844_1_alg».proof.Proof.Gen.ReferenceIdeal.Read
import proofs.«104761_j55671366090844_1_alg».proof.Proof.KernelIdealValue
import proofs.«104761_j55671366090844_1_alg».proof.Proof.KernelValue
import proofs.«104761_j55671366090844_1_alg».proof.Proof.ReferenceValue
import Idealize.ShloMosaic.Adequacy
import Idealize.ShloMosaic.Init

noncomputable section

namespace Cert.Proof

open Idealize.ShloMosaic Idealize.SL.Sem

/-- The kernel runs and leaves the input array unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves the input array unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealisation. -/
theorem preserves : Cert.preserves_Kernel_KernelIdeal := trivial

/-- From memories that agree on the input array both programs end with the result array at the specification
    `G` of that array: the kernel block by block, the reference through its last stage. -/
theorem algebraic : Cert.algebraic_KernelIdeal_ReferenceIdeal := by
  intro m ρ m' ρ' _ hagree
  refine ⟨fun c => Cert.QuantSpec.G (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
